-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : FVec F S128x128 .f32) (main_arg2 : FVec F S128 .f32) (main_arg3 : IVec S800000 32) (main_arg4 : IVec S800000 32) (main_arg5 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 75
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .i32⟩
  | .hbm, ⟨4, _⟩ => ⟨S800000, .i32⟩
  | .hbm, ⟨5, _⟩ => ⟨S50000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000, .i32⟩
  | .hbm, ⟨24, _⟩ => ⟨S800000, .i32⟩
  | .hbm, ⟨25, _⟩ => ⟨S800000, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S800000x1, .i32⟩
  | .hbm, ⟨39, _⟩ => ⟨S50000, .f32⟩
  | .hbm, ⟨40, _⟩ => ⟨S_, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000, .f32⟩
  | .hbm, ⟨56, _⟩ => ⟨S800000, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S800000x1, .f32⟩
  | .hbm, ⟨67, _⟩ => ⟨S800000x128, .f32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S1x128, .f32⟩
  | .hbm, ⟨74, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_c_1 : Ref sig .tc := ⟨.hbm, 15, rfl⟩
abbrev main_call0_v7 : Ref sig .tc := ⟨.hbm, 16, rfl⟩
abbrev main_call0_v8 : Ref sig .tc := ⟨.hbm, 17, rfl⟩
abbrev main_call0_c_2 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_cst : Ref sig .tc := ⟨.hbm, 26, rfl⟩
abbrev main_call0_v16 : Ref sig .tc := ⟨.hbm, 27, rfl⟩
abbrev main_call0_cst_3 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_v20 : Ref sig .tc := ⟨.hbm, 35, rfl⟩
abbrev main_call0_cst_5 : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_cst_6 : Ref sig .tc := ⟨.hbm, 40, rfl⟩
abbrev main_call0_call1_v0 : Ref sig .tc := ⟨.hbm, 41, rfl⟩
abbrev main_call0_call1_v1 : Ref sig .tc := ⟨.hbm, 42, rfl⟩
abbrev main_call0_v24 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_c_7 : Ref sig .tc := ⟨.hbm, 47, rfl⟩
abbrev main_call0_v28 : Ref sig .tc := ⟨.hbm, 48, rfl⟩
abbrev main_call0_v29 : Ref sig .tc := ⟨.hbm, 49, rfl⟩
abbrev main_call0_c_8 : Ref sig .tc := ⟨.hbm, 50, rfl⟩
abbrev main_call0_v30 : Ref sig .tc := ⟨.hbm, 51, rfl⟩
abbrev main_call0_v31 : Ref sig .tc := ⟨.hbm, 52, rfl⟩
abbrev main_call0_v32 : Ref sig .tc := ⟨.hbm, 53, rfl⟩
abbrev main_call0_v33 : Ref sig .tc := ⟨.hbm, 54, rfl⟩
abbrev main_call0_v34 : Ref sig .tc := ⟨.hbm, 55, rfl⟩
abbrev main_call0_v35 : Ref sig .tc := ⟨.hbm, 56, rfl⟩
abbrev main_call0_c_9 : Ref sig .tc := ⟨.hbm, 57, rfl⟩
abbrev main_call0_v36 : Ref sig .tc := ⟨.hbm, 58, rfl⟩
abbrev main_call0_v37 : Ref sig .tc := ⟨.hbm, 59, rfl⟩
abbrev main_call0_c_10 : Ref sig .tc := ⟨.hbm, 60, rfl⟩
abbrev main_call0_v38 : Ref sig .tc := ⟨.hbm, 61, rfl⟩
abbrev main_call0_v39 : Ref sig .tc := ⟨.hbm, 62, rfl⟩
abbrev main_call0_v40 : Ref sig .tc := ⟨.hbm, 63, rfl⟩
abbrev main_call0_v41 : Ref sig .tc := ⟨.hbm, 64, rfl⟩
abbrev main_call0_v42 : Ref sig .tc := ⟨.hbm, 65, rfl⟩
abbrev main_call0_v43 : Ref sig .tc := ⟨.hbm, 66, rfl⟩
abbrev main_call0_v44 : Ref sig .tc := ⟨.hbm, 67, rfl⟩
abbrev main_call0_v45 : Ref sig .tc := ⟨.hbm, 68, rfl⟩
abbrev main_call0_cst_11 : Ref sig .tc := ⟨.hbm, 69, rfl⟩
abbrev main_call0_v46 : Ref sig .tc := ⟨.hbm, 70, rfl⟩
abbrev main_call0_v47 : Ref sig .tc := ⟨.hbm, 71, rfl⟩
abbrev main_call0_v48 : Ref sig .tc := ⟨.hbm, 72, rfl⟩
abbrev main_call0_v49 : Ref sig .tc := ⟨.hbm, 73, rfl⟩
abbrev main_v0 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000_S800000x1_S800000_n_0_n_n_0_1_1_wf : GatherDims.WF S50000 S800000x1 S800000 [] [0] [] [0] [] 1 ![1]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_call0_v48) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v27) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v49) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .i32⟩
  | .hbm, ⟨4, _⟩ => ⟨S800000, .i32⟩
  | .hbm, ⟨5, _⟩ => ⟨S50000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000, .i32⟩
  | .hbm, ⟨24, _⟩ => ⟨S800000, .i32⟩
  | .hbm, ⟨25, _⟩ => ⟨S800000, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S800000x1, .i32⟩
  | .hbm, ⟨39, _⟩ => ⟨S50000, .f32⟩
  | .hbm, ⟨40, _⟩ => ⟨S_, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x1, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_call1_v0 : Ref sig .tc := ⟨.hbm, 41, rfl⟩
abbrev main_call1_v1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000_S800000x1_S800000_n_0_n_n_0_1_1_wf : GatherDims.WF S50000 S800000x1 S800000 [] [0] [] [0] [] 1 ![1]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The dense stage both programs end with, as ONE function of its four operands, index by index over the extended reals:

      project agg nd W b (i, o) = ( Σ_k (agg (i, k) · nd (i, 0)) · W (k, o) ) + b (0, o)

  agg the [node × feature] aggregate, nd the destination normalisation as a column, W the weight, b the bias as a row.
  The reference computes it as a broadcast multiply, a whole `dot_general` and a broadcast add; the kernel block by block
  over ten row blocks of 5000, with a matrix product into a zero accumulator (changes of float format are the identity
  here, and the zero accumulator adds nothing). A sum over the 128 features is the same sum in either program.
-/
import Idealize.ShloMosaic.PureOps.Ideal
import Idealize.ShloMosaic.Lib.ValueIdx

noncomputable section

namespace Cert.GraphConv

open Idealize.ShloMosaic Idealize.ShloMosaic.ValueIdx

/-- Normalise each aggregate row by its node's factor, project by the weight, add the bias. -/
def project (agg : FVec Ideal ⟨2, ![50000, 128]⟩ .f32) (nd : FVec Ideal ⟨2, ![50000, 1]⟩ .f32)
    (W : FVec Ideal ⟨2, ![128, 128]⟩ .f32) (b : FVec Ideal ⟨2, ![1, 128]⟩ .f32) : FVec Ideal ⟨2, ![50000, 128]⟩ .f32 :=
  fun j => (∑ k : Fin 128, (agg (ix2 (j 0) k) * nd (ix2 (j 0) (0 : Fin 1))) * W (ix2 k (j 1))) + b (ix2 (0 : Fin 1) (j 1))

theorem project_apply (agg : FVec Ideal ⟨2, ![50000, 128]⟩ .f32) (nd : FVec Ideal ⟨2, ![50000, 1]⟩ .f32)
    (W : FVec Ideal ⟨2, ![128, 128]⟩ .f32) (b : FVec Ideal ⟨2, ![1, 128]⟩ .f32) (i : Fin 50000) (o : Fin 128) :
    project agg nd W b (ix2 i o) = (∑ k : Fin 128, (agg (ix2 i k) * nd (ix2 i (0 : Fin 1))) * W (ix2 k o)) + b (ix2 (0 : Fin 1) o) := rfl

end Cert.GraphConv

end
-- ==== Proof.RefValue.lean ====
/-
  The reference's result is the dense stage `project` of ITS aggregate and ITS destination normalisation: the last six
  host operations read at an index (i, o) — the bias spread over the rows, the `dot_general` as a sum over the 128
  features, the aggregate times the normalisation column spread across the features.
-/
import proofs.«428455_j10737418240016_2_alg».proof.Proof.Gen.ReferenceIdeal.Read
import proofs.«428455_j10737418240016_2_alg».proof.Proof.Spec

noncomputable section

namespace Cert.GraphConv

open Cert.ReferenceIdeal Cert.ReferenceIdeal.Gen Cert.ReferenceIdeal.Read
open Idealize.ShloMosaic Idealize.ShloMosaic.TcCoe Idealize.ShloMosaic.ValueIdx

theorem ref_lidx (i : Fin 50000) (o k : Fin 128) : lidx_main_v46 (ix2 i o) k = ix2 i k :=
  funext fun a => Fin.ext (by match a with | ⟨0, _⟩ => rfl | ⟨1, _⟩ => rfl)

theorem ref_ridx (i : Fin 50000) (o k : Fin 128) : ridx_main_v46 (ix2 i o) k = ix2 k o :=
  funext fun a => Fin.ext (by match a with | ⟨0, _⟩ => rfl | ⟨1, _⟩ => rfl)

theorem ref_ndidx (i : Fin 50000) (k : Fin 128) : idx_main_v44 (ix2 i k) = ix2 i (0 : Fin 1) :=
  funext fun a => Fin.ext (by match a with | ⟨0, _⟩ => rfl | ⟨1, _⟩ => rfl)

theorem ref_bidx (i : Fin 50000) (o : Fin 128) : idx_main_v48 (ix2 i o) = ix2 (0 : Fin 1) o :=
  funext fun a => Fin.ext (by match a with | ⟨0, _⟩ => rfl | ⟨1, _⟩ => rfl)

/-- The reference's result array is `project` of its aggregate (`%43`), its destination normalisation column (`%28`),
    the weight and the bias row (`%47`). -/
theorem ref_is_project (x0 : FVec Ideal S50000x128 .f32) (x1 : FVec Ideal S128x128 .f32) (x2 : FVec Ideal S128 .f32)
    (x3 x4 : IVec S800000 32) (x5 : IVec S50000 32) :
    val_main_v49 (F := Ideal) x0 x1 x2 x3 x4 x5
      = project (val_main_v43 (F := Ideal) x0 x3 x4 x5) (val_main_v28 (F := Ideal) x4) x1 (val_main_v47 (F := Ideal) x2) := by
  funext j
  obtain ⟨i, o, rfl⟩ : ∃ (i : Fin 50000) (o : Fin 128), j = ix2 i o := ⟨j 0, j 1, eq_ix2 j⟩
  rw [val_main_v49_apply, val_main_v46_apply, val_main_v48_apply, project_apply, ref_bidx]
  refine congrArg (· + val_main_v47 (F := Ideal) x2 (ix2 (0 : Fin 1) o)) (Finset.sum_congr rfl fun k _ => ?_)
  rw [ref_lidx, ref_ridx, val_main_v45_apply, val_main_v44_apply, ref_ndidx]
  rfl

end Cert.GraphConv

end
-- ==== Proof.KerBody.lean ====
/-
  The kernel body's one stored value, read at an element (p, q) of a [5000 × 128] row block, at the extended reals:

      ( Σ_k (a (p, k) · n (p, 0)) · w (k, q) ) + b (0, q)

  a the aggregate's block, n the normalisation column's block, w the weight and b the bias row. The two shape casts are
  of a shape to itself, the narrowing of both matrix-product operands to half precision is the identity on extended reals,
  the column is broadcast across the 128 lanes and the bias row down the 5000 rows, and the matrix product into a zero
  accumulator is the plain sum over the 128 contracted coordinates.
-/
import proofs.«428455_j10737418240016_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.GraphConv

open Cert.KernelIdeal Cert.KernelIdeal.Gen
open Idealize.ShloMosaic Idealize.ShloMosaic.TcCoe Idealize.ShloMosaic.ValueIdx

/-! The matrix product's operand indices, axis by axis: the left operand is read at (row of the result, contracted
    coordinate), the right at (contracted coordinate, column of the result). -/

theorem lhs_body_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_body_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_body_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_body_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into a zero accumulator, at (p, q): the sum over the 128 features. -/
theorem body_matmul_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_body_0 _ _
    | ⟨1, _⟩ => exact (lhs_body_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_body_0 _ _).trans hk
    | ⟨1, _⟩ => exact rhs_body_1 _ _)
  rw [el, er]

/-- The normalisation column spread across the 128 lanes reads, at (p, k), the column at (p, 0). -/
theorem col_across (n : FVec Ideal S5000x1 .f32) (p : Fin 5000) (k : Fin 128) :
    broadcastTo S5000x128 n broadcasts_S5000x1_S5000x128 (ix2 p k) = n (ix2 p (0 : Fin 1)) :=
  broadcastTo_apply n broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-- The bias row spread down the 5000 rows reads, at (p, q), the row at (0, q). -/
theorem row_down (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The body's stored value at (p, q). -/
theorem body_apply (a : Vec Ideal S5000x128 .f32) (n : Vec Ideal S5000x1 .f32) (w : Vec Ideal S128x128 .f32) (b : Vec Ideal S1x128 .f32)
    (p : Fin 5000) (q : Fin 128) :
    k0_pay1 (F := Ideal) a n w b (ix2 p q)
      = (∑ k : Fin 128, (a (ix2 p k) * n (ix2 p (0 : Fin 1))) * w (ix2 k q)) + b (ix2 (0 : Fin 1) q) := by
  unfold k0_pay1
  simp only [shapeCast_self]
  rw [addf_apply, body_matmul_apply, row_down]
  refine congrArg (· + b (ix2 (0 : Fin 1) q)) (Finset.sum_congr rfl fun k _ => ?_)
  rw [truncf_apply, truncf_apply, mulf_apply, col_across]

end Cert.GraphConv

end
-- ==== Proof.KerValue.lean ====
/-
  The kernel's result array is the dense stage `project` of the four arrays its region finds.

  The grid has ten points; point t stages rows [5000 t, 5000 t + 5000) of the aggregate and of the normalisation column,
  the whole weight and the whole bias row, and writes back rows [5000 t, 5000 t + 5000) of the result. What it writes at
  local (p, q) is the body's value of its blocks, which is `project` of the whole arrays at global (5000 t + p, q): row p
  of a block is row 5000 t + p of its array. Every row r lies in the block of point r / 5000, so the ten blocks cover the
  result and it ends holding `project` everywhere.

  Three of the four arrays are computed by the host operations before the region, and their contents are long terms:
  every step below that compares two expressions is therefore made over free blocks and arrays first and instantiated
  once, so that no comparison ever has to look inside those contents.
-/
import proofs.«428455_j10737418240016_2_alg».proof.Proof.Gen.KernelIdeal.Value
import proofs.«428455_j10737418240016_2_alg».proof.Proof.KerBody
import proofs.«428455_j10737418240016_2_alg».proof.Proof.Spec

noncomputable section

namespace Cert.GraphConv

open Cert.KernelIdeal Cert.KernelIdeal.Gen
open Idealize.ShloMosaic Idealize.ShloMosaic.TcCoe Idealize.ShloMosaic.ValueIdx Idealize.SL.Sem
open Idealize.ShloMosaic.Pipeline (Dat)

theorem zero_off : (![0, 0] : Fin 2 → Nat) = fun _ => 0 := funext fun a => by fin_cases a <;> rfl

/-- The body's value at any element of the block (the coordinates read off the index). -/
theorem body_at (a : Vec Ideal S5000x128 .f32) (n : Vec Ideal S5000x1 .f32) (w : Vec Ideal S128x128 .f32) (b : Vec Ideal S1x128 .f32)
    (j : S5000x128.Idx) :
    k0_pay1 (F := Ideal) a n w b j
      = (∑ k : Fin 128, (a (ix2 (j 0) k) * n (ix2 (j 0) (0 : Fin 1))) * w (ix2 k (j 1))) + b (ix2 (0 : Fin 1) (j 1)) := by
  conv_lhs => rw [eq_ix2 j]
  exact body_apply a n w b (j 0) (j 1)

theorem project_at (agg : FVec Ideal S50000x128 .f32) (nd : FVec Ideal S50000x1 .f32) (W : FVec Ideal S128x128 .f32)
    (b : FVec Ideal S1x128 .f32) (i : S50000x128.Idx) :
    project agg nd W b i = (∑ k : Fin 128, (agg (ix2 (i 0) k) * nd (ix2 (i 0) (0 : Fin 1))) * W (ix2 k (i 1))) + b (ix2 (0 : Fin 1) (i 1)) := rfl

/-- The body's value of four blocks at local (p, q) is `project` of four arrays at a global index, as soon as the blocks'
    entries the body reads are the arrays' entries `project` reads there. Stated over free blocks and arrays. -/
theorem body_is_project (a : Vec Ideal S5000x128 .f32) (n : Vec Ideal S5000x1 .f32) (w : Vec Ideal S128x128 .f32) (b : Vec Ideal S1x128 .f32)
    (A : FVec Ideal S50000x128 .f32) (N : FVec Ideal S50000x1 .f32) (W : FVec Ideal S128x128 .f32) (B : FVec Ideal S1x128 .f32)
    (j : S5000x128.Idx) (i : S50000x128.Idx)
    (hA : ∀ k : Fin 128, a (ix2 (j 0) k) = A (ix2 (i 0) k)) (hN : n (ix2 (j 0) (0 : Fin 1)) = N (ix2 (i 0) (0 : Fin 1)))
    (hW : ∀ k : Fin 128, w (ix2 k (j 1)) = W (ix2 k (i 1))) (hB : b (ix2 (0 : Fin 1) (j 1)) = B (ix2 (0 : Fin 1) (i 1))) :
    k0_pay1 (F := Ideal) a n w b j = project A N W B i := by
  rw [body_at, project_at, hN, hB]
  refine congrArg (· + B (ix2 (0 : Fin 1) (i 1))) (Finset.sum_congr rfl fun k _ => ?_)
  rw [hA k, hW k]

/-- The printed index maps over the ten points: the two row-blocked inputs move with the output, block t on the row
    axis and block 0 on the other; the weight and the bias row stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! Where each block's element sits in its array, against where the output block's element (p, q) sits in the result:
    the row-blocked inputs share the output's row 5000 t + p; the weight and the bias row are staged whole. -/

theorem agg_at (t : Fin cfg0.N) (j : S5000x128.Idx) (k : Fin 128) :
    ((cfg0.win 0).blk t).view.emb (ix2 (j 0) k) = ix2 ((((cfg0.win 4).blk t).view.emb j) 0) k := by
  obtain ⟨e00, e01, -, -, -, -, -, -, e40, -⟩ := idx_facts t
  funext a; apply Fin.ext
  match a with
  | ⟨0, _⟩ =>
    show win0_0.index t (0 : Fin 2) * 5000 + 1 * (j 0).val = win0_4.index t (0 : Fin 2) * 5000 + 1 * (j 0).val
    omega
  | ⟨1, _⟩ =>
    show win0_0.index t (1 : Fin 2) * 128 + 1 * k.val = k.val
    omega

theorem nd_at (t : Fin cfg0.N) (j : S5000x128.Idx) :
    ((cfg0.win 1).blk t).view.emb (ix2 (j 0) (0 : Fin 1)) = ix2 ((((cfg0.win 4).blk t).view.emb j) 0) (0 : Fin 1) := by
  obtain ⟨-, -, e10, e11, -, -, -, -, e40, -⟩ := idx_facts t
  funext a; apply Fin.ext
  match a with
  | ⟨0, _⟩ =>
    show win0_1.index t (0 : Fin 2) * 5000 + 1 * (j 0).val = win0_4.index t (0 : Fin 2) * 5000 + 1 * (j 0).val
    omega
  | ⟨1, _⟩ =>
    show win0_1.index t (1 : Fin 2) * 1 + 1 * 0 = 0
    omega

theorem w_at (t : Fin cfg0.N) (j : S5000x128.Idx) (k : Fin 128) :
    ((cfg0.win 2).blk t).view.emb (ix2 k (j 1)) = ix2 k ((((cfg0.win 4).blk t).view.emb j) 1) := by
  obtain ⟨-, -, -, -, e20, e21, -, -, -, e41⟩ := idx_facts t
  funext a; apply Fin.ext
  match a with
  | ⟨0, _⟩ =>
    show win0_2.index t (0 : Fin 2) * 128 + 1 * k.val = k.val
    omega
  | ⟨1, _⟩ =>
    show win0_2.index t (1 : Fin 2) * 128 + 1 * (j 1).val = win0_4.index t (1 : Fin 2) * 128 + 1 * (j 1).val
    omega

theorem b_at (t : Fin cfg0.N) (j : S5000x128.Idx) :
    ((cfg0.win 3).blk t).view.emb (ix2 (0 : Fin 1) (j 1)) = ix2 (0 : Fin 1) ((((cfg0.win 4).blk t).view.emb j) 1) := by
  obtain ⟨-, -, -, -, -, -, e30, e31, -, e41⟩ := idx_facts t
  funext a; apply Fin.ext
  match a with
  | ⟨0, _⟩ =>
    show win0_3.index t (0 : Fin 2) * 1 + 1 * 0 = 0
    omega
  | ⟨1, _⟩ =>
    show win0_3.index t (1 : Fin 2) * 128 + 1 * (j 1).val = win0_4.index t (1 : Fin 2) * 128 + 1 * (j 1).val
    omega

/-- What a point writes back, for FREE input blocks and arrays: if the blocks' entries are the arrays' entries at the
    places above, the body's stores read through the output's block are block `t` of `project` of the arrays. -/
theorem flushed_core (t : Fin cfg0.N)
    (a : Vec Ideal S5000x128 .f32) (n : Vec Ideal S5000x1 .f32) (w : Vec Ideal S128x128 .f32) (b : Vec Ideal S1x128 .f32)
    (A : FVec Ideal S50000x128 .f32) (N : FVec Ideal S50000x1 .f32) (W : FVec Ideal S128x128 .f32) (B : FVec Ideal S1x128 .f32)
    (hA : ∀ (y : S5000x128.Idx), a y = A (((cfg0.win 0).blk t).view.emb y))
    (hN : ∀ (y : S5000x1.Idx), n y = N (((cfg0.win 1).blk t).view.emb y))
    (hW : ∀ (y : S128x128.Idx), w y = W (((cfg0.win 2).blk t).view.emb y))
    (hB : ∀ (y : S1x128.Idx), b y = B (((cfg0.win 3).blk t).view.emb y)) :
    (cfg0.win 4).cut (grid0.coords t) (out0_4 (F := Ideal) a n w b)
      = ((cfg0.win 4).blk t).view.read (Elt Ideal) (project A N W B) := by
  unfold out0_4
  rw [View.canon_unit_zero zero_off]
  simp only [View.ld_unit_zero (S := S5000x128) zero_off, View.ld_unit_zero (S := S5000x1) zero_off,
    View.ld_unit_zero (S := S128x128) zero_off, View.ld_unit_zero (S := S1x128) zero_off]
  refine funext fun (j : S5000x128.Idx) => ?_
  show k0_pay1 (F := Ideal) a n w b j = project A N W B (((cfg0.win 4).blk t).view.emb j)
  exact body_is_project a n w b A N W B j (((cfg0.win 4).blk t).view.emb j)
    (fun k => (hA _).trans (congrArg A (agg_at t j k)))
    ((hN _).trans (congrArg N (nd_at t j)))
    (fun k => (hW _).trans (congrArg W (w_at t j k)))
    ((hB _).trans (congrArg B (b_at t j)))

variable (m : (ℓ : Loc nD τ sig) → Buf (Elt Ideal) ℓ) (ρ : Dev nD → PrngReg)

/-- The four arrays the region finds, each at its literal type: the aggregate, the destination normalisation column,
    the weight and the bias row. -/
abbrev aggArr (c : Dev nD) : FVec Ideal S50000x128 .f32 := V m c main_call0_v48
abbrev ndArr (c : Dev nD) : FVec Ideal S50000x1 .f32 := V m c main_call0_v27
abbrev wArr (c : Dev nD) : FVec Ideal S128x128 .f32 := V m c main_arg1
abbrev bArr (c : Dev nD) : FVec Ideal S1x128 .f32 := V m c main_call0_v49

/-- Each input window's block at point `t` is its array read through the block's rectangle. -/
theorem agg_blk (c : Dev nD) (t : Fin cfg0.N) (y : S5000x128.Idx) :
    (iblk m c 0 t : Vec Ideal S5000x128 .f32) y = aggArr m c (((cfg0.win 0).blk t).view.emb y) := by
  unfold iblk
  rw [View.read_apply, cast_eq]
theorem nd_blk (c : Dev nD) (t : Fin cfg0.N) (y : S5000x1.Idx) :
    (iblk m c 1 t : Vec Ideal S5000x1 .f32) y = ndArr m c (((cfg0.win 1).blk t).view.emb y) := by
  unfold iblk
  rw [View.read_apply, cast_eq]
theorem w_blk (c : Dev nD) (t : Fin cfg0.N) (y : S128x128.Idx) :
    (iblk m c 2 t : Vec Ideal S128x128 .f32) y = wArr m c (((cfg0.win 2).blk t).view.emb y) := by
  unfold iblk
  rw [View.read_apply, cast_eq]
theorem b_blk (c : Dev nD) (t : Fin cfg0.N) (y : S1x128.Idx) :
    (iblk m c 3 t : Vec Ideal S1x128 .f32) y = bArr m c (((cfg0.win 3).blk t).view.emb y) := by
  unfold iblk
  rw [View.read_apply, cast_eq]

/-- What point `t` writes back is block `t` of `project` of the arrays the region finds. -/
theorem flushed_eq (c : Dev nD) (t : Fin cfg0.N) :
    (dats m 0 c).flushed 4 t = ((cfg0.win 4).blk t).view.read (Elt Ideal)
      (project (aggArr m c) (ndArr m c) (wArr m c) (bArr m c)) :=
  (Cert.KernelIdeal.Value.flushed4 m c t).trans
    (flushed_core t (iblk m c 0 t) (iblk m c 1 t) (iblk m c 2 t) (iblk m c 3 t)
      (aggArr m c) (ndArr m c) (wArr m c) (bArr m c)
      (agg_blk m c t) (nd_blk m c t) (w_blk m c t) (b_blk m c t))

/-- An index of the result is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v0).slice (win0_4.rect t)).set ↔ _
  rw [View.set_slice_whole, Rect.mem_set_unit]
  exact Iff.rfl

/-- Row r of the result lies in the block of point r / 5000: the ten blocks cover it. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  obtain ⟨-, -, -, -, -, -, -, -, e40, e41⟩ := idx_facts (⟨(i 0).val / 5000, by rw [hN]; omega⟩ : Fin cfg0.N)
  have e40' : win0_4.index (⟨(i 0).val / 5000, by rw [hN]; omega⟩ : Fin cfg0.N) (0 : Fin 2) = (i 0).val / 5000 := e40
  refine ⟨⟨(i 0).val / 5000, by rw [hN]; omega⟩, flush0_4 _, ?_⟩
  rw [mem_blk]
  intro a
  match a with
  | ⟨0, _⟩ =>
    show win0_4.index _ (0 : Fin 2) * 5000 ≤ (i 0).val ∧ (i 0).val < win0_4.index _ (0 : Fin 2) * 5000 + 5000
    omega
  | ⟨1, _⟩ =>
    show win0_4.index _ (1 : Fin 2) * 128 ≤ (i 1).val ∧ (i 1).val < win0_4.index _ (1 : Fin 2) * 128 + 128
    omega

/-- The result array after the run is `project` of the four arrays the region finds. -/
theorem final (c : Dev nD) :
    (dats m 0 c).arrAt 4 cfg0.N = project (aggArr m c) (ndArr m c) (wArr m c) (bArr m c) :=
  (dats m 0 c).arrAt_eq_of_cover 4 _ (fun t _ => flushed_eq m c t) cover

/-- The kernel's run, with the result named: every weakly fair execution ends with the result at `project` of the found
    arrays and the six arguments unchanged. -/
theorem ker_run : θ_run defs (onTc (τ := τ) (main (F := Ideal))) ⟨m, fun _ => 0, ρ⟩ fun r => ∀ c : Dev nD,
      r.2.mem ((c : Thread nD τ).loc main_v0) = project (aggArr m c) (ndArr m c) (wArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.GraphConv

end
-- ==== Proof.LibRowGatherScatter.lean ====
/-
  A host gather of whole rows and a host scatter-add of whole rows, read at one element.

  `table[idx]` over an [N × C] table with an [E × 1] column of start indices prints as a `stablehlo.gather` whose
  row axis is collapsed and start-indexed and whose column axis is the one offset axis: result row `e` is the table's
  row at `idx e` read signed and clamped into the table.

  `zeros.at[idx].add(upd)` over rows prints as a `stablehlo.scatter` with an `add` body whose row axis is inserted and
  scatter-indexed and whose column axis is the one update-window axis: at the extended reals element (i, q) ends at its
  old value plus the sum of `upd (e, q)` over the rows `e` whose index word reads `i` as a signed integer; a row whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Result element (e, q) of a row gather is the table's element (row, q), `row` the start index of `e` read signed and
    clamped into `[0, N − 1]`. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-- Element (i, q) after a row scatter-add at the extended reals: the old value plus the updates of the rows sent to `i`. -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by
  -- the updates' one scatter axis is axis 0
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  -- the row axis starts at the row's index word read signed, with no window coordinate (it is inserted)
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  -- the column axis starts at 0 (the map does not name it), its window coordinate the update's column
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  -- an update lands at (i, q) exactly when its row's index word reads i and its column is q
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  -- re-index the updates landing at (i, q) by their row
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.LibElemGather.lean ====
/-
  A host gather of single elements of a vector, read at one element.

  `v[idx]` over a length-N vector with an [E × 1] column of start indices prints as a `stablehlo.gather` whose one
  operand axis is collapsed and start-indexed and which has no offset axis: result element `e` is the vector's element
  at `idx e` read signed and clamped into `[0, N − 1]` — the same row a gather of whole rows of an [N × C] table
  reads for the same index word.
-/
import Idealize.ShloMosaic.PureOps.Ideal
import Idealize.ShloMosaic.Lib.ValueIdx

noncomputable section

namespace Cert.GraphConv

open Idealize.ShloMosaic Idealize.ShloMosaic.ValueIdx

/-- Result element `e` of an element gather is the vector's element at the start index of `e`, read signed and clamped
    into `[0, N − 1]`. -/
theorem gather_elems {α : Type} {N E w : Nat} (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (hN : 0 < N) :
    Host.gather d x idx (ix1 e) = x (ix1 ⟨min (idx (ix2 e (0 : Fin 1))).toInt.toNat (N - 1), by omega⟩) := by
  unfold Host.gather
  congr 1
  funext a
  apply Fin.ext
  have hb : ∀ a : Fin 1, a ∉ d.operandBatchingDims := fun a => by rw [hob]; exact List.not_mem_nil
  -- the result has one axis, so every batch axis is axis 0
  have he : ∀ X : Fin 1, ((ix1 e : (⟨1, ![E]⟩ : Shape).Idx) X).val = e.val := by
    intro X
    match X with
    | ⟨0, _⟩ => rfl
  match a with
  | ⟨0, _⟩ =>
    -- the one operand axis: start-indexed and collapsed, so the clamped start alone
    have hk : (0 : Fin 1) ∉ d.sKept := by rw [GatherDims.mem_sKept, hcoll]; simp
    have hm : (0 : Fin 1) ∈ d.startIndexMap := by rw [hsim]; exact List.mem_singleton.mpr rfl
    have hsl : d.sliceSizes 0 = 1 := d.slice_collapsed 0 (by rw [hcoll]; exact List.mem_singleton.mpr rfl)
    show d.start (ix1 e) idx 0 + d.batchCoord (ix1 e) 0 + d.offCoord (ix1 e) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _
    | ⟨1, _⟩ =>
      unfold GatherDims.siIdx
      rw [dif_pos (by rw [hivd])]
      apply Fin.ext
      show List.idxOf (0 : Fin 1) d.startIndexMap = 0
      rw [hsim]; simp

end Cert.GraphConv

end
-- ==== Proof.EdgeLaw.lean ====
/-
  The one place where the two programs differ before the dense stage: the per-edge message.

  Write, for an edge e with source row r (its source index read signed and clamped into the node range), ns for the
  source normalisation rsqrt(max(1, out-degree)) and ew for the edge weight (the AND of the two endpoint masks, as a float).
  The reference scales the node features first and weights the gathered row:   (h[r, q] · ns[r]) · ew[e].
  The kernel gathers the unscaled row and folds the normalisation into the weight:  h[r, q] · (ew[e] · ns[r]).
  A gather of rows of the [node × feature] table and a gather of elements of the per-node vector read the SAME row r for
  the same index word, so the two messages are one product of three extended reals regrouped: multiplication of
  extended reals is commutative and associative with no side condition, so nothing about finiteness is used.
  The scatter-add into the destination rows is then the same operation applied to equal updates.
-/
import proofs.«428455_j10737418240016_2_alg».proof.Proof.Gen.ReferenceIdeal.Read
import proofs.«428455_j10737418240016_2_alg».proof.Proof.LibRowGatherScatter
import proofs.«428455_j10737418240016_2_alg».proof.Proof.LibElemGather

noncomputable section

namespace Cert.GraphConv

open Cert.ReferenceIdeal Cert.ReferenceIdeal.Gen Cert.ReferenceIdeal.Read
open Idealize.ShloMosaic Idealize.ShloMosaic.TcCoe Idealize.ShloMosaic.ValueIdx

/-- The source row of edge `e`: the normalised source index word read signed and clamped into the 50000 nodes. -/
def srcRow (x3 : IVec S800000 32) (e : Fin 800000) : Fin 50000 :=
  ⟨min ((val_main_v36 (F := Ideal) x3) (ix2 e (0 : Fin 1))).toInt.toNat (50000 - 1), by omega⟩

/-- A per-edge vector spread to a column and then across the 128 features reads, at (e, q), the vector at e. -/
theorem spread_edge (y : FVec Ideal S800000 .f32) (e : Fin 800000) (q : Fin 128) :
    broadcastInDim S800000x128 ![0, 1] bcast_S800000x1_S800000x128_0_1
      (broadcastInDim S800000x1 ![0] bcast_S800000_S800000x1_0 y) (ix2 e q) = y (ix1 e) := by
  rw [broadcastInDim_apply _ bcast_S800000x1_S800000x128_0_1 _ (ix2 e q) (ix2 e (0 : Fin 1)) (fun a => match a with
    | ⟨0, _⟩ => by show e.val = if (800000 : Nat) = 1 then 0 else e.val; rw [if_neg (by decide)]
    | ⟨1, _⟩ => by show 0 = if (1 : Nat) = 1 then 0 else q.val; rw [if_pos rfl])]
  exact broadcastInDim_apply _ bcast_S800000_S800000x1_0 y (ix2 e (0 : Fin 1)) (ix1 e) (fun a => match a with
    | ⟨0, _⟩ => by show e.val = if (800000 : Nat) = 1 then 0 else e.val; rw [if_neg (by decide)])

/-- The kernel's per-edge scalar: the edge weight times the source normalisation gathered at the edge's source. -/
def kerEdgeW (x3 x4 : IVec S800000 32) (x5 : IVec S50000 32) : FVec Ideal S800000 .f32 :=
  mulf (val_main_v15 (F := Ideal) x3 x4 x5)
    (Host.gather gather_S50000_S800000x1_S800000_n_0_n_n_0_1_1 (val_main_v25 (F := Ideal) x3) (val_main_v36 (F := Ideal) x3))

/-- The kernel's messages: the gathered unscaled feature rows times that scalar spread across the features. -/
def kerMsgs (x0 : FVec Ideal S50000x128 .f32) (x3 x4 : IVec S800000 32) (x5 : IVec S50000 32) : FVec Ideal S800000x128 .f32 :=
  mulf (Host.gather gather_S50000x128_S800000x1_S800000x128_1_0_n_n_0_1_1128 x0 (val_main_v36 (F := Ideal) x3))
    (broadcastInDim S800000x128 ![0, 1] bcast_S800000x1_S800000x128_0_1
      (broadcastInDim S800000x1 ![0] bcast_S800000_S800000x1_0 (kerEdgeW x3 x4 x5)))

/-- The kernel's aggregate: the messages added into their destination rows of a zero table. -/
def kerAgg (x0 : FVec Ideal S50000x128 .f32) (x3 x4 : IVec S800000 32) (x5 : IVec S50000 32) : FVec Ideal S50000x128 .f32 :=
  Host.scatterAdd scatter_S50000x128_S800000x1_S800000x128_1_0_0_1 (val_main_v41 (F := Ideal)) (val_main_v42 (F := Ideal) x4)
    (kerMsgs x0 x3 x4 x5)

/-- The kernel's per-edge scalar from a given edge weight and a given source normalisation. -/
def edgeWOf (x3 : IVec S800000 32) (ew : FVec Ideal S800000 .f32) (ns : FVec Ideal S50000 .f32) : FVec Ideal S800000 .f32 :=
  mulf ew (Host.gather gather_S50000_S800000x1_S800000_n_0_n_n_0_1_1 ns (val_main_v36 (F := Ideal) x3))

/-- The kernel's aggregate from a given per-edge scalar. -/
def aggOf (x0 : FVec Ideal S50000x128 .f32) (x3 x4 : IVec S800000 32) (we : FVec Ideal S800000 .f32) : FVec Ideal S50000x128 .f32 :=
  Host.scatterAdd scatter_S50000x128_S800000x1_S800000x128_1_0_0_1 (val_main_v41 (F := Ideal)) (val_main_v42 (F := Ideal) x4)
    (mulf (Host.gather gather_S50000x128_S800000x1_S800000x128_1_0_n_n_0_1_1128 x0 (val_main_v36 (F := Ideal) x3))
      (broadcastInDim S800000x128 ![0, 1] bcast_S800000x1_S800000x128_0_1
        (broadcastInDim S800000x1 ![0] bcast_S800000_S800000x1_0 we)))

/-- `kerAgg` is the aggregate from the per-edge scalar made of the edge weight and the source normalisation. -/
theorem kerAgg_of (x0 : FVec Ideal S50000x128 .f32) (x3 x4 : IVec S800000 32) (x5 : IVec S50000 32) :
    kerAgg x0 x3 x4 x5 = aggOf x0 x3 x4 (edgeWOf x3 (val_main_v15 (F := Ideal) x3 x4 x5) (val_main_v25 (F := Ideal) x3)) := rfl

/-- The reference's message at (e, q): the scaled feature row at the source row, times the edge weight. -/
theorem refMsgs_apply (x0 : FVec Ideal S50000x128 .f32) (x3 x4 : IVec S800000 32) (x5 : IVec S50000 32) (e : Fin 800000) (q : Fin 128) :
    val_main_v40 (F := Ideal) x0 x3 x4 x5 (ix2 e q)
      = (x0 (ix2 (srcRow x3 e) q) * val_main_v25 (F := Ideal) x3 (ix1 (srcRow x3 e))) * val_main_v15 (F := Ideal) x3 x4 x5 (ix1 e) := by
  rw [val_main_v40_apply, val_main_v39_apply, val_main_v38_apply]
  unfold val_main_v37
  rw [Cert.Gcn.gather_rows _ rfl rfl rfl rfl rfl _ _ e q (by decide), val_main_v30_apply, val_main_v29_apply, val_main_v26_apply]
  have h1 : idx_main_v26 (idx_main_v29 (ix2 (srcRow x3 e) q)) = ix1 (srcRow x3 e) :=
    funext fun a => Fin.ext (by match a with | ⟨0, _⟩ => rfl)
  have h2 : idx_main_v38 (idx_main_v39 (ix2 e q)) = ix1 e :=
    funext fun a => Fin.ext (by match a with | ⟨0, _⟩ => rfl)
  show FloatOps.mulf (FloatOps.mulf (x0 (ix2 (srcRow x3 e) q))
      (val_main_v25 (F := Ideal) x3 (idx_main_v26 (idx_main_v29 (ix2 (srcRow x3 e) q)))))
      (val_main_v15 (F := Ideal) x3 x4 x5 (idx_main_v38 (idx_main_v39 (ix2 e q)))) = _
  rw [h1, h2]
  rfl

/-- The kernel's message at (e, q): the unscaled feature row at the SAME source row, times the weight-and-normalisation
    scalar of the edge. -/
theorem kerMsgs_apply (x0 : FVec Ideal S50000x128 .f32) (x3 x4 : IVec S800000 32) (x5 : IVec S50000 32) (e : Fin 800000) (q : Fin 128) :
    kerMsgs x0 x3 x4 x5 (ix2 e q)
      = x0 (ix2 (srcRow x3 e) q) * (val_main_v15 (F := Ideal) x3 x4 x5 (ix1 e) * val_main_v25 (F := Ideal) x3 (ix1 (srcRow x3 e))) := by
  unfold kerMsgs
  rw [mulf_apply, spread_edge, Cert.Gcn.gather_rows _ rfl rfl rfl rfl rfl _ _ e q (by decide)]
  unfold kerEdgeW
  rw [mulf_apply, gather_elems _ rfl rfl rfl rfl _ _ e (by decide)]
  rfl

/-- A product of three extended reals regrouped and its last two factors swapped. -/
theorem regroup (a b c : EReal) : (a * b) * c = a * (c * b) := by
  rw [mul_assoc, mul_comm b c]

/-- The two programs' messages are equal, edge by edge and feature by feature. -/
theorem kerMsgs_eq (x0 : FVec Ideal S50000x128 .f32) (x3 x4 : IVec S800000 32) (x5 : IVec S50000 32) :
    kerMsgs x0 x3 x4 x5 = val_main_v40 (F := Ideal) x0 x3 x4 x5 := by
  funext j
  obtain ⟨e, q, rfl⟩ : ∃ (e : Fin 800000) (q : Fin 128), j = ix2 e q := ⟨j 0, j 1, eq_ix2 j⟩
  rw [kerMsgs_apply, refMsgs_apply]
  exact (regroup _ _ _).symm

/-- So the two aggregates are equal: the same scatter-add of equal updates. -/
theorem kerAgg_eq (x0 : FVec Ideal S50000x128 .f32) (x3 x4 : IVec S800000 32) (x5 : IVec S50000 32) :
    kerAgg x0 x3 x4 x5 = val_main_v43 (F := Ideal) x0 x3 x4 x5 := by
  unfold kerAgg val_main_v43
  rw [kerMsgs_eq]

end Cert.GraphConv

end
-- ==== Proof.LibHostStretch.lean ====
/-
  Running a list of host operations in stretches.

  The contents after a list of operations is a fold over the list, so the contents after a concatenation are the
  second part's after the first part's; in particular the contents after the first n + k operations are the contents
  after the k operations that follow the first n, started from the contents after the first n. A buffer that no
  operation of a list writes keeps its contents through every prefix of the list.

  An operation of a module-local function reads and writes its buffers through a transport along the buffer's type;
  writing a value through it and reading it back gives the value.
-/
import Idealize.ShloMosaic.Lib.StableHlo.Run

noncomputable section

namespace Cert.GraphConv

open Idealize.ShloMosaic Idealize.ShloMosaic.StableHlo

variable {τ : Topo} {sig : RefSig} {Val : EltTy → Type}

/-- The contents after one list of operations and then another are the second's after the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The first n + k operations are the first n, then the k that follow them. -/
theorem after_take_add (l : List (HloOp τ sig Val)) (n k : Nat) (V : Valuation τ sig Val) :
    after (List.take (n + k) l) V = after (List.take k (List.drop n l)) (after (List.take n l) V) := by
  rw [List.take_add, after_append]

/-- The whole list is its first n operations, then the rest. -/
theorem after_take_drop (l : List (HloOp τ sig Val)) (n : Nat) (V : Valuation τ sig Val) :
    after l V = after (List.drop n l) (after (List.take n l) V) := by
  conv_lhs => rw [← List.take_append_drop n l]
  exact after_append _ _ _

/-- A buffer no operation of the list writes keeps its contents through every prefix of the list. -/
theorem prefix_keeps {b : DevRef τ sig} (l : List (HloOp τ sig Val)) (h : ∀ op ∈ l, b ∉ op.writes) (n : Nat)
    (V : Valuation τ sig Val) : after (List.take n l) V b = V b :=
  after_of_forall_not_mem _ _ fun op ho => h op (List.mem_of_mem_take ho)

/-- A value written to a typed reference's buffer and read back is the value. -/
theorem ofBuf_toBuf {T : BufTy} (x : TRef sig T) (v : T.Contents Val) : x.ofBuf (x.toBuf v) = v := by
  obtain ⟨r, rfl, h2, h3⟩ := x
  rfl

end Cert.GraphConv

end
-- ==== Proof.HostArgs.lean ====
/-
  No host operation of the kernel's program writes an argument buffer: the feature table, the two index vectors and the
  node mask pass through every prefix of the operations unchanged.
-/
import proofs.«428455_j10737418240016_2_alg».proof.Proof.Gen.KernelIdeal.Launch
import Idealize.ShloMosaic.Lib.StableHlo.Run
import Idealize.ShloMosaic.PureOps.Ideal

noncomputable section

namespace Cert.GraphConv

open Cert.KernelIdeal Cert.KernelIdeal.Gen
open Idealize.ShloMosaic Idealize.ShloMosaic.TcCoe Idealize.SL.Sem Idealize.ShloMosaic.StableHlo

set_option maxHeartbeats 8000000 in
/-- Every operation writes its own result buffer, and none of those is the feature table. -/
theorem arg0_unwritten : ∀ op ∈ (hostOps0 (F := Ideal) : List (HloOp τ sig (Elt Ideal))),
    Proc.devRef (τ := τ) .tc main_arg0 ∉ op.writes :=
  List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

set_option maxHeartbeats 8000000 in
/-- Nor the source index vector. -/
theorem arg3_unwritten : ∀ op ∈ (hostOps0 (F := Ideal) : List (HloOp τ sig (Elt Ideal))),
    Proc.devRef (τ := τ) .tc main_arg3 ∉ op.writes :=
  List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

set_option maxHeartbeats 8000000 in
/-- Nor the destination index vector. -/
theorem arg4_unwritten : ∀ op ∈ (hostOps0 (F := Ideal) : List (HloOp τ sig (Elt Ideal))),
    Proc.devRef (τ := τ) .tc main_arg4 ∉ op.writes :=
  List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

set_option maxHeartbeats 8000000 in
/-- Nor the node mask. -/
theorem arg5_unwritten : ∀ op ∈ (hostOps0 (F := Ideal) : List (HloOp τ sig (Elt Ideal))),
    Proc.devRef (τ := τ) .tc main_arg5 ∉ op.writes :=
  List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

end Cert.GraphConv

end
-- ==== Proof.HostEdgeWeight.lean ====
/-
  The first twenty host operations of the kernel's program make the edge weight.

  Operations 1–9 wrap the source indices (a negative index has the node count added) and gather the node mask at them;
  operations 10–18 do the same for the destination indices; operations 19–20 take the bitwise AND of the two gathered
  masks and convert it to a float. Each stretch is read over ARBITRARY starting contents G, as a function of G at the
  buffers the stretch reads; the reference computes the same three stages from its own arguments, so each result is
  stated as the reference's stage of G at the argument buffers.
-/
import proofs.«428455_j10737418240016_2_alg».proof.Proof.Gen.KernelIdeal.Launch
import proofs.«428455_j10737418240016_2_alg».proof.Proof.Gen.ReferenceIdeal.Read
import Idealize.ShloMosaic.Lib.StableHlo.Run

noncomputable section

namespace Cert.GraphConv

open Cert.KernelIdeal Cert.KernelIdeal.Gen
open Idealize.ShloMosaic Idealize.ShloMosaic.TcCoe Idealize.SL.Sem Idealize.ShloMosaic.StableHlo

set_option maxHeartbeats 4000000 in
/-- Operations 1–9: the node mask gathered at the wrapped source indices. -/
theorem mask_at_src (G : Valuation τ sig (Elt Ideal)) :
    (after (List.take 9 (hostOps0 (F := Ideal))) G (Proc.devRef .tc main_call0_v6) : IVec S800000 32)
      = Cert.ReferenceIdeal.Read.val_main_v6 (F := Ideal) (G (Proc.devRef .tc main_arg3)) (G (Proc.devRef .tc main_arg5)) := by
  simp only [hostOps0, List.take_succ_cons, List.take_zero, List.drop_succ_cons, List.drop_zero]
  after_results
  rfl

set_option maxHeartbeats 4000000 in
/-- Operations 10–18: the node mask gathered at the wrapped destination indices. -/
theorem mask_at_dst (G : Valuation τ sig (Elt Ideal)) :
    (after (List.take 9 (List.drop 9 (hostOps0 (F := Ideal)))) G (Proc.devRef .tc main_call0_v13) : IVec S800000 32)
      = Cert.ReferenceIdeal.Read.val_main_v13 (F := Ideal) (G (Proc.devRef .tc main_arg4)) (G (Proc.devRef .tc main_arg5)) := by
  simp only [hostOps0, List.take_succ_cons, List.take_zero, List.drop_succ_cons, List.drop_zero]
  after_results
  rfl

set_option maxHeartbeats 4000000 in
/-- Operations 10–18 leave the mask gathered at the sources where it is. -/
theorem mask_at_src_kept (G : Valuation τ sig (Elt Ideal)) :
    after (List.take 9 (List.drop 9 (hostOps0 (F := Ideal)))) G (Proc.devRef .tc main_call0_v6) = G (Proc.devRef .tc main_call0_v6) := by
  simp only [hostOps0, List.take_succ_cons, List.take_zero, List.drop_succ_cons, List.drop_zero]
  after_results

set_option maxHeartbeats 4000000 in
/-- Operations 19–20: the AND of the two gathered masks, as a float. -/
theorem and_as_float (G : Valuation τ sig (Elt Ideal)) :
    (after (List.take 2 (List.drop 18 (hostOps0 (F := Ideal)))) G (Proc.devRef .tc main_call0_v15) : FVec Ideal S800000 .f32)
      = sitofp (F := Ideal) .f32 (andi (G (Proc.devRef .tc main_call0_v6) : IVec S800000 32) (G (Proc.devRef .tc main_call0_v13) : IVec S800000 32)) := by
  simp only [hostOps0, List.take_succ_cons, List.take_zero, List.drop_succ_cons, List.drop_zero]
  after_results
  rfl

end Cert.GraphConv

end
-- ==== Proof.HostSrcNorm.lean ====
/-
  Operations 21–41 of the kernel's host program make the two normalisations; read here is the source one.

  Operations 21–30 count each node's outgoing edges (a scatter-add of ones at the source indices into a zero vector) and
  clamp the count below at one: the reference's clamped out-degree of the same source indices. Operations 31–38 do the
  same for the incoming edges and write neither the clamped out-degree nor the edge weight. Operations 39–41 take the
  reciprocal square roots. Each stretch is read over ARBITRARY starting contents G. The clamped count is read through
  its buffer's own type, so that every value written to a buffer and read back cancels before the two sides are compared:
  the scatter-add is then compared argument by argument and never opened.
-/
import proofs.«428455_j10737418240016_2_alg».proof.Proof.Gen.KernelIdeal.Launch
import proofs.«428455_j10737418240016_2_alg».proof.Proof.Gen.ReferenceIdeal.Read
import proofs.«428455_j10737418240016_2_alg».proof.Proof.LibHostStretch
import Idealize.ShloMosaic.Lib.StableHlo.Run

noncomputable section

namespace Cert.GraphConv

open Cert.KernelIdeal Cert.KernelIdeal.Gen
open Idealize.ShloMosaic Idealize.ShloMosaic.TcCoe Idealize.SL.Sem Idealize.ShloMosaic.StableHlo

set_option maxHeartbeats 4000000 in
/-- Operations 21–30: the out-degree of every node, clamped below at one. -/
theorem out_degree (G : Valuation τ sig (Elt Ideal)) :
    (TRef.of main_call0_v20 : TRef sig ⟨S50000, .f32⟩).ofBuf
        (after (List.take 10 (List.drop 20 (hostOps0 (F := Ideal)))) G (Proc.devRef .tc main_call0_v20))
      = Cert.ReferenceIdeal.Read.val_main_v20 (F := Ideal) (G (Proc.devRef .tc main_arg3)) := by
  simp only [hostOps0, List.take_succ_cons, List.take_zero, List.drop_succ_cons, List.drop_zero]
  after_results
  simp only [ofBuf_toBuf]
  rfl

/-- Reading the clamped out-degree's buffer at its own type changes nothing. -/
theorem out_degree_typed (v : (Proc.devRef (τ := τ) .tc main_call0_v20).ty.Contents (Elt Ideal)) :
    (TRef.of main_call0_v20 : TRef sig ⟨S50000, .f32⟩).ofBuf v = v := rfl

set_option maxHeartbeats 4000000 in
/-- Operations 31–38 leave the clamped out-degree where it is. -/
theorem out_degree_kept (G : Valuation τ sig (Elt Ideal)) :
    after (List.take 8 (List.drop 30 (hostOps0 (F := Ideal)))) G (Proc.devRef .tc main_call0_v20) = G (Proc.devRef .tc main_call0_v20) := by
  simp only [hostOps0, List.take_succ_cons, List.take_zero, List.drop_succ_cons, List.drop_zero]
  after_results

set_option maxHeartbeats 4000000 in
/-- Operations 39–41: the source normalisation is the reciprocal square root of the clamped out-degree. -/
theorem src_norm (G : Valuation τ sig (Elt Ideal)) :
    (after (List.take 3 (List.drop 38 (hostOps0 (F := Ideal)))) G (Proc.devRef .tc main_call0_v25) : FVec Ideal S50000 .f32)
      = @Host.rsqrt Ideal _ S50000 .f32 (G (Proc.devRef .tc main_call0_v20)) := by
  simp only [hostOps0, List.take_succ_cons, List.take_zero, List.drop_succ_cons, List.drop_zero]
  after_results
  rfl

set_option maxHeartbeats 8000000 in
/-- Operations 21–41 leave the edge weight where it is. -/
theorem edge_weight_kept (G : Valuation τ sig (Elt Ideal)) :
    after (List.take 21 (List.drop 20 (hostOps0 (F := Ideal)))) G (Proc.devRef .tc main_call0_v15) = G (Proc.devRef .tc main_call0_v15) := by
  simp only [hostOps0, List.take_succ_cons, List.take_zero, List.drop_succ_cons, List.drop_zero]
  after_results

end Cert.GraphConv

end
-- ==== Proof.HostAggregate.lean ====
/-
  Operations 42–68 of the kernel's host program make the per-edge scalar and the aggregate.

  Operations 42–51 wrap the source indices once more, gather the source normalisation at them and multiply the edge weight
  by it: the kernel's per-edge scalar `edgeWOf`. Operations 52–68 wrap the source indices again, gather the feature rows,
  multiply each row by the edge's scalar spread across the features, and add the rows into their destination rows of a
  zero table: the kernel's aggregate `aggOf`. Each stretch is read over ARBITRARY starting contents G.
-/
import proofs.«428455_j10737418240016_2_alg».proof.Proof.Gen.KernelIdeal.Launch
import proofs.«428455_j10737418240016_2_alg».proof.Proof.EdgeLaw
import Idealize.ShloMosaic.Lib.StableHlo.Run

noncomputable section

namespace Cert.GraphConv

open Cert.KernelIdeal Cert.KernelIdeal.Gen
open Idealize.ShloMosaic Idealize.ShloMosaic.TcCoe Idealize.SL.Sem Idealize.ShloMosaic.StableHlo

set_option maxHeartbeats 4000000 in
/-- Operations 42–51: the edge weight times the source normalisation gathered at the edge's wrapped source index. -/
theorem edge_scalar (G : Valuation τ sig (Elt Ideal)) :
    (after (List.take 10 (List.drop 41 (hostOps0 (F := Ideal)))) G (Proc.devRef .tc main_call0_v35) : S800000.Idx → EReal)
      = edgeWOf (G (Proc.devRef .tc main_arg3)) (G (Proc.devRef .tc main_call0_v15)) (G (Proc.devRef .tc main_call0_v25)) := by
  simp only [hostOps0, List.take_succ_cons, List.take_zero, List.drop_succ_cons, List.drop_zero]
  after_results
  rfl

set_option maxHeartbeats 20000000 in
/-- Operations 52–68: the gathered feature rows times the per-edge scalar, added into their destination rows. -/
theorem aggregate (G : Valuation τ sig (Elt Ideal)) :
    (after (List.drop 51 (hostOps0 (F := Ideal))) G (Proc.devRef .tc main_call0_v48) : S50000x128.Idx → EReal)
      = aggOf (G (Proc.devRef .tc main_arg0)) (G (Proc.devRef .tc main_arg3)) (G (Proc.devRef .tc main_arg4))
          (G (Proc.devRef .tc main_call0_v35)) := by
  simp only [hostOps0, List.take_succ_cons, List.take_zero, List.drop_succ_cons, List.drop_zero]
  after_results
  rfl

end Cert.GraphConv

end
-- ==== Proof.KerHost.lean ====
/-
  What the kernel's region finds in the three arrays its host prefix computes, as functions of the six arguments.

  The host prefix is the call of `forward`'s operations. Read back operation by operation:
  * the aggregate (`%48`) is the scatter-add, into the destination rows of a zero table, of the gathered unscaled
    feature rows times the per-edge scalar (edge weight times the source normalisation gathered at the source):
    `kerAgg`, written over the same operations the reference uses for its own index arithmetic, masks and degrees;
  * the normalisation column (`%27`) is operation for operation the reference's `%28`;
  * the bias row (`%49`) is the bias reshaped to one row, where the reference broadcasts it along axis 1 (`%47`): at
    (0, q) both are the bias at q.
  The aggregate depends on nearly every operation of the list, so it is followed through the prefixes of the list: the
  contents after the first 9, 18, 20, 30, 38, 41 and 51 operations, each obtained from the one before by the stretch of
  operations between them (read elsewhere over arbitrary starting contents); the arguments pass through every prefix.
-/
import proofs.«428455_j10737418240016_2_alg».proof.Proof.KerValue
import proofs.«428455_j10737418240016_2_alg».proof.Proof.EdgeLaw
import proofs.«428455_j10737418240016_2_alg».proof.Proof.LibHostStretch
import proofs.«428455_j10737418240016_2_alg».proof.Proof.HostArgs
import proofs.«428455_j10737418240016_2_alg».proof.Proof.HostEdgeWeight
import proofs.«428455_j10737418240016_2_alg».proof.Proof.HostSrcNorm
import proofs.«428455_j10737418240016_2_alg».proof.Proof.HostAggregate
import Idealize.ShloMosaic.Lib.StableHlo.Run

noncomputable section

namespace Cert.GraphConv

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The contents after a prefix of the operations -/

/-- Core `c`'s buffer contents after the first `n` host operations. -/
def pre (c : Dev nD) (n : Nat) : Valuation τ sig (Elt Ideal) :=
  after (List.take n (hostOps0 (F := Ideal))) (fun b => m (c, b))

/-- The contents after the first n + k operations are those after the k operations that follow the first n. -/
theorem pre_add (c : Dev nD) (n k : Nat) :
    pre m c (n + k) = after (List.take k (List.drop n (hostOps0 (F := Ideal)))) (pre m c n) :=
  after_take_add _ n k _

/-- What the region finds is what the operations after the first n leave of the contents after the first n. -/
theorem found_after (c : Dev nD) (n : Nat) (r : Ref sig .tc) :
    V m c r = after (List.drop n (hostOps0 (F := Ideal))) (pre m c n) (Proc.devRef .tc r) :=
  congrFun (after_take_drop (hostOps0 (F := Ideal)) n (fun b => m (c, b))) (Proc.devRef .tc r)

/-- A buffer no operation writes holds, after every prefix, what it was launched with. -/
theorem pre_arg (c : Dev nD) (n : Nat) {r : Ref sig .tc}
    (h : ∀ op ∈ (hostOps0 (F := Ideal) : List (HloOp τ sig (Elt Ideal))), Proc.devRef (τ := τ) .tc r ∉ op.writes) :
    pre m c n (Proc.devRef .tc r) = m ((c : Thread nD τ).loc r) :=
  prefix_keeps _ h n _

/-! ## The aggregate -/

/-- After the first twenty operations the edge-weight buffer holds the reference's edge weight of the arguments. -/
theorem edge_weight_found (c : Dev nD) :
    (pre m c 20 (Proc.devRef .tc main_call0_v15) : FVec Ideal S800000 .f32)
      = Cert.ReferenceIdeal.Read.val_main_v15 (F := Ideal) (m ((c : Thread nD τ).loc main_arg3))
          (m ((c : Thread nD τ).loc main_arg4)) (m ((c : Thread nD τ).loc main_arg5)) := by
  have h6 : (pre m c 18 (Proc.devRef .tc main_call0_v6) : IVec S800000 32)
      = Cert.ReferenceIdeal.Read.val_main_v6 (F := Ideal) (m ((c : Thread nD τ).loc main_arg3)) (m ((c : Thread nD τ).loc main_arg5)) :=
    (congrFun (pre_add m c 9 9) _).trans ((mask_at_src_kept (pre m c 9)).trans (mask_at_src (fun b => m (c, b))))
  have h13 : (pre m c 18 (Proc.devRef .tc main_call0_v13) : IVec S800000 32)
      = Cert.ReferenceIdeal.Read.val_main_v13 (F := Ideal) (m ((c : Thread nD τ).loc main_arg4)) (m ((c : Thread nD τ).loc main_arg5)) :=
    (congrFun (pre_add m c 9 9) _).trans ((mask_at_dst (pre m c 9)).trans (by
      rw [pre_arg m c 9 arg4_unwritten, pre_arg m c 9 arg5_unwritten]))
  refine (congrFun (pre_add m c 18 2) _).trans ((and_as_float (pre m c 18)).trans ?_)
  rw [h6, h13]
  rfl

/-- After the first forty-one operations the source-normalisation buffer holds the reference's source normalisation. -/
theorem src_norm_found (c : Dev nD) :
    (pre m c 41 (Proc.devRef .tc main_call0_v25) : FVec Ideal S50000 .f32)
      = Cert.ReferenceIdeal.Read.val_main_v25 (F := Ideal) (m ((c : Thread nD τ).loc main_arg3)) := by
  have h20 : (pre m c 38 (Proc.devRef .tc main_call0_v20) : FVec Ideal S50000 .f32)
      = Cert.ReferenceIdeal.Read.val_main_v20 (F := Ideal) (m ((c : Thread nD τ).loc main_arg3)) :=
    (congrFun (pre_add m c 30 8) _).trans ((out_degree_kept (pre m c 30)).trans
      ((congrFun (pre_add m c 20 10) _).trans (((out_degree_typed _).symm.trans (out_degree (pre m c 20))).trans (by
        rw [pre_arg m c 20 arg3_unwritten]))))
  refine (congrFun (pre_add m c 38 3) _).trans ((src_norm (pre m c 38)).trans ?_)
  rw [h20]
  rfl

/-- The edge weight is still there after the first forty-one operations. -/
theorem edge_weight_later (c : Dev nD) :
    pre m c 41 (Proc.devRef .tc main_call0_v15) = pre m c 20 (Proc.devRef .tc main_call0_v15) :=
  (congrFun (pre_add m c 20 21) _).trans (edge_weight_kept (pre m c 20))

/-- After the first fifty-one operations the per-edge scalar is the kernel's, of the reference's edge weight and source
    normalisation of the arguments. -/
theorem edge_scalar_found (c : Dev nD) :
    (pre m c 51 (Proc.devRef .tc main_call0_v35) : FVec Ideal S800000 .f32)
      = edgeWOf (m ((c : Thread nD τ).loc main_arg3))
          (Cert.ReferenceIdeal.Read.val_main_v15 (F := Ideal) (m ((c : Thread nD τ).loc main_arg3))
            (m ((c : Thread nD τ).loc main_arg4)) (m ((c : Thread nD τ).loc main_arg5)))
          (Cert.ReferenceIdeal.Read.val_main_v25 (F := Ideal) (m ((c : Thread nD τ).loc main_arg3))) := by
  refine (congrFun (pre_add m c 41 10) _).trans ((edge_scalar (pre m c 41)).trans ?_)
  rw [pre_arg m c 41 arg3_unwritten, edge_weight_later, edge_weight_found, src_norm_found]

/-- The aggregate the region finds is `kerAgg` of the features, the two index vectors and the mask. -/
theorem agg_found (c : Dev nD) :
    aggArr m c = kerAgg (m ((c : Thread nD τ).loc main_arg0)) (m ((c : Thread nD τ).loc main_arg3))
      (m ((c : Thread nD τ).loc main_arg4)) (m ((c : Thread nD τ).loc main_arg5)) := by
  refine (found_after m c 51 main_call0_v48).trans ((aggregate (pre m c 51)).trans ?_)
  rw [pre_arg m c 51 arg0_unwritten, pre_arg m c 51 arg3_unwritten, pre_arg m c 51 arg4_unwritten, edge_scalar_found,
    kerAgg_of]

/-! ## The normalisation column and the bias row -/

/-- Reading the normalisation column's buffer at its own type changes nothing. -/
theorem nd_typed (v : (Proc.devRef (τ := τ) .tc main_call0_v27).ty.Contents (Elt Ideal)) :
    (TRef.of main_call0_v27 : TRef sig ⟨S50000x1, .f32⟩).ofBuf v = v := rfl

set_option maxHeartbeats 20000000 in
/-- Read through its buffer's own type — so that every value written to a buffer and read back cancels, and the in-degree's
    scatter-add is compared argument by argument —, the column after the host operations is the reference's. -/
theorem nd_found_typed (c : Dev nD) :
    (TRef.of main_call0_v27 : TRef sig ⟨S50000x1, .f32⟩).ofBuf
        (after (hostOps0 (F := Ideal)) (fun b => m (c, b)) (Proc.devRef .tc main_call0_v27))
      = Cert.ReferenceIdeal.Read.val_main_v28 (F := Ideal) (m ((c : Thread nD τ).loc main_arg4)) := by
  simp only [hostOps0]
  after_results
  simp only [ofBuf_toBuf]
  rfl

/-- The normalisation column the region finds is the reference's destination normalisation column. -/
theorem nd_found (c : Dev nD) :
    ndArr m c = Cert.ReferenceIdeal.Read.val_main_v28 (F := Ideal) (m ((c : Thread nD τ).loc main_arg4)) :=
  (nd_typed _).symm.trans (nd_found_typed m c)

/-- The bias row the region finds is the reference's: the bias at the column, whichever way it was laid in one row. -/
theorem bias_found (c : Dev nD) :
    bArr m c = Cert.ReferenceIdeal.Read.val_main_v47 (F := Ideal) (m ((c : Thread nD τ).loc main_arg2)) := by
  dsimp only [bArr, Gen.V, Gen.hostOps0]
  after_results
  funext j
  obtain ⟨z, q, rfl⟩ : ∃ (z : Fin 1) (q : Fin 128), j = ix2 z q := ⟨j 0, j 1, eq_ix2 j⟩
  obtain rfl : z = 0 := Subsingleton.elim _ _
  rw [Cert.ReferenceIdeal.Read.val_main_v47_apply]
  show shapeCast S1x128 (m ((c : Thread nD τ).loc main_arg2)) shapeCasts_S128_S1x128 (ix2 (0 : Fin 1) q)
    = m ((c : Thread nD τ).loc main_arg2) (Cert.ReferenceIdeal.Read.idx_main_v47 (ix2 (0 : Fin 1) q))
  refine (shapeCast_apply _ shapeCasts_S128_S1x128 (ix2 (0 : Fin 1) q) (ix1 q) (by
    rw [Shape.rowMajor_val_two, Shape.rowMajor_val_one]; show q.val = 0 * 128 + q.val; omega)).trans ?_
  exact congrArg _ (funext fun a => Fin.ext (by match a with | ⟨0, _⟩ => rfl))

/-- So the kernel's result is `project` of the REFERENCE's aggregate, normalisation column and bias row of the same
    arguments: the aggregates agree by the edge law. -/
theorem ker_result (c : Dev nD) :
    project (aggArr m c) (ndArr m c) (wArr m c) (bArr m c)
      = project
          (Cert.ReferenceIdeal.Read.val_main_v43 (F := Ideal) (m ((c : Thread nD τ).loc main_arg0)) (m ((c : Thread nD τ).loc main_arg3))
            (m ((c : Thread nD τ).loc main_arg4)) (m ((c : Thread nD τ).loc main_arg5)))
          (Cert.ReferenceIdeal.Read.val_main_v28 (F := Ideal) (m ((c : Thread nD τ).loc main_arg4)))
          (m ((c : Thread nD τ).loc main_arg1))
          (Cert.ReferenceIdeal.Read.val_main_v47 (F := Ideal) (m ((c : Thread nD τ).loc main_arg2))) :=
  congr (congr (congr (congrArg project ((agg_found m c).trans (kerAgg_eq _ _ _ _))) (nd_found m c)) (V_main_arg1 m c))
    (bias_found m c)

end Cert.GraphConv

end
-- ==== Proof.lean ====
/-
  A degree-normalised masked graph convolution: a Pallas kernel for the dense stage against a plain jnp reference.

  Both programs compute, for node features h, a weight W, a bias b, edge lists src and dst and a node mask:
  the edge weight ew[e] = float(mask[src e] AND mask[dst e]); the out- and in-degrees clamped below at one and their
  reciprocal square roots ns (by source) and nd (by destination); messages per edge and feature; the aggregate
  agg[i, ·] = Σ over edges e with dst e = i of the message of e; and the result (agg[i, ·] · nd[i]) · W + b.

  They differ in two places. The reference scales the features first and weights the gathered row,
  (h[src e, q] · ns[src e]) · ew[e], where the kernel's host code gathers the unscaled row and folds the normalisation
  into the per-edge scalar, h[src e, q] · (ew[e] · ns[src e]): one product of three extended reals regrouped, equal with
  no side condition, so the precondition is never opened. And the dense stage is one broadcast multiply, one whole matrix
  product and one broadcast add in the reference, while the kernel computes it in ten row blocks of 5000 with a matrix
  product into a zero accumulator (a change of float format is the identity over the extended reals): both are the one
  function `project` of the aggregate, the normalisation column, the weight and the bias row.

  The three frames are the generated ones (the reference's is its generated run with the result dropped); the
  idealisation rewrote nothing, so `preserves` is trivial.
-/
import proofs.«428455_j10737418240016_2_alg».proof.Defs
import proofs.«428455_j10737418240016_2_alg».proof.Proof.Gen.Kernel
import proofs.«428455_j10737418240016_2_alg».proof.Proof.Gen.Kernel.Skeleton
import proofs.«428455_j10737418240016_2_alg».proof.Proof.Gen.Kernel.Launch
import proofs.«428455_j10737418240016_2_alg».proof.Proof.Gen.Kernel.Points
import proofs.«428455_j10737418240016_2_alg».proof.Proof.Gen.Kernel.Frame
import proofs.«428455_j10737418240016_2_alg».proof.Proof.Gen.KernelIdeal
import proofs.«428455_j10737418240016_2_alg».proof.Proof.Gen.KernelIdeal.Skeleton
import proofs.«428455_j10737418240016_2_alg».proof.Proof.Gen.KernelIdeal.Launch
import proofs.«428455_j10737418240016_2_alg».proof.Proof.Gen.KernelIdeal.Points
import proofs.«428455_j10737418240016_2_alg».proof.Proof.Gen.KernelIdeal.Frame
import proofs.«428455_j10737418240016_2_alg».proof.Proof.Gen.ReferenceIdeal
import proofs.«428455_j10737418240016_2_alg».proof.Proof.Gen.Pre_finite_inputs
import proofs.«428455_j10737418240016_2_alg».proof.Proof.Gen.KernelIdeal.Value
import proofs.«428455_j10737418240016_2_alg».proof.Proof.Gen.ReferenceIdeal.Run
import proofs.«428455_j10737418240016_2_alg».proof.Proof.Gen.ReferenceIdeal.Read
import proofs.«428455_j10737418240016_2_alg».proof.Proof.RefValue
import proofs.«428455_j10737418240016_2_alg».proof.Proof.KerValue
import proofs.«428455_j10737418240016_2_alg».proof.Proof.KerHost
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at `project` of the reference's aggregate, destination normalisation column and
    bias row of the kernel's arguments: the kernel's by its blocks and the edge law, the reference's by reading its last
    six operations at an index, its arguments being the kernel's. -/
theorem algebraic : Cert.algebraic_KernelIdeal_ReferenceIdeal := by
  intro m ρ m' ρ' _ hagree
  refine ⟨fun c => Cert.GraphConv.project
      (Cert.ReferenceIdeal.Read.val_main_v43 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5)))
      (Cert.ReferenceIdeal.Read.val_main_v28 (F := Ideal)
        (m ((c : Thread Cert.KernelIdeal.nD Cert.KernelIdeal.τ).loc Cert.KernelIdeal.main_arg4)))
      (m ((c : Thread Cert.KernelIdeal.nD Cert.KernelIdeal.τ).loc Cert.KernelIdeal.main_arg1))
      (Cert.ReferenceIdeal.Read.val_main_v47 (F := Ideal)
        (m ((c : Thread Cert.KernelIdeal.nD Cert.KernelIdeal.τ).loc Cert.KernelIdeal.main_arg2))), ?_, ?_⟩
  · exact (θ_run Cert.KernelIdeal.defs _ _).mono
      (fun r h c => ⟨(h c).1.trans (Cert.GraphConv.ker_result m c), (h c).2⟩) (Cert.GraphConv.ker_run m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v49_eq (F := Ideal) _ _ _ _ _ _).trans
      ((Cert.GraphConv.ref_is_project _ _ _ _ _ _).trans ?_)
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
